-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x7056x64 : Shape := ⟨3, ![8, 7056, 64]⟩
abbrev S84672 : Shape := ⟨1, ![84672]⟩
abbrev S576x32 : Shape := ⟨2, ![576, 32]⟩
abbrev S32 : Shape := ⟨1, ![32]⟩
abbrev S28224x9 : Shape := ⟨2, ![28224, 9]⟩
abbrev S_ : Shape := ⟨0, ![]⟩

class Facts : Prop where
  bcast_S_S8x7056x64 : S_.BroadcastsInDim S8x7056x64 (![] : Fin 0 → Fin S8x7056x64.rank)
  reducesTo_S8x7056x64_S_d0_1_2 : S8x7056x64.ReducesTo [0, 1, 2] S_
  h_S_ : 0 < S_.numel
  bcast_S_S84672 : S_.BroadcastsInDim S84672 (![] : Fin 0 → Fin S84672.rank)
  reducesTo_S84672_S_d0 : S84672.ReducesTo [0] S_
  bcast_S_S576x32 : S_.BroadcastsInDim S576x32 (![] : Fin 0 → Fin S576x32.rank)
  reducesTo_S576x32_S_d0_1 : S576x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  main_v18

def fn {F : FTy → Type} [FloatOps F] (main_arg0 : FVec F S8x7056x64 .f32) (main_arg1 : FVec F S84672 .f32) (main_arg2 : FVec F S576x32 .f32) (main_arg3 : FVec F S32 .f32) (main_arg4 : IVec S84672 32) (main_arg5 : IVec S84672 32) (main_arg6 : IVec S28224x9 32) : IVec S_ 1 :=
  let main_v0 : FVec F S8x7056x64 .f32 := Host.absf main_arg0
  let main_cst : FVec F S_ .f32 := constant S_ .f32 0x7F800000#32
  let main_v1 : FVec F S8x7056x64 .f32 := broadcastInDim S8x7056x64 ![] bcast_S_S8x7056x64 main_cst
  let main_v2 : IVec S8x7056x64 1 := cmpf .olt main_v0 main_v1
  let main_c : IVec S_ 1 := constantI S_ 1 1#1
  let main_v3 : IVec S_ 1 := (fun x v => Host.reduce IntOp.andi x v reducesTo_S8x7056x64_S_d0_1_2 h_S_) main_v2 main_c
  let main_v4 : FVec F S84672 .f32 := Host.absf main_arg1
  let main_cst_0 : FVec F S_ .f32 := constant S_ .f32 0x7F800000#32
  let main_v5 : FVec F S84672 .f32 := broadcastInDim S84672 ![] bcast_S_S84672 main_cst_0
  let main_v6 : IVec S84672 1 := cmpf .olt main_v4 main_v5
  let main_c_1 : IVec S_ 1 := constantI S_ 1 1#1
  let main_v7 : IVec S_ 1 := (fun x v => Host.reduce IntOp.andi x v reducesTo_S84672_S_d0 h_S_) main_v6 main_c_1
  let main_v8 : IVec S_ 1 := andi main_v3 main_v7
  let main_v9 : FVec F S576x32 .f32 := Host.absf main_arg2
  let main_cst_2 : FVec F S_ .f32 := constant S_ .f32 0x7F800000#32
  let main_v10 : FVec F S576x32 .f32 := broadcastInDim S576x32 ![] bcast_S_S576x32 main_cst_2
  let main_v11 : IVec S576x32 1 := cmpf .olt main_v9 main_v10
  let main_c_3 : IVec S_ 1 := constantI S_ 1 1#1
  let main_v12 : IVec S_ 1 := (fun x v => Host.reduce IntOp.andi x v reducesTo_S576x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_v13 main_v16
-- ==== Kernel.lean ====
abbrev S8x7056x64 : Shape := ⟨3, ![8, 7056, 64]⟩
abbrev S84672 : Shape := ⟨1, ![84672]⟩
abbrev S576x32 : Shape := ⟨2, ![576, 32]⟩
abbrev S32 : Shape := ⟨1, ![32]⟩
abbrev S28224x9 : Shape := ⟨2, ![28224, 9]⟩
abbrev S_ : Shape := ⟨0, ![]⟩
abbrev S84672x1 : Shape := ⟨2, ![84672, 1]⟩
abbrev S8x84672x64 : Shape := ⟨3, ![8, 84672, 64]⟩
abbrev S1x84672x1 : Shape := ⟨3, ![1, 84672, 1]⟩
abbrev S8x28224x64 : Shape := ⟨3, ![8, 28224, 64]⟩
abbrev S254016 : Shape := ⟨1, ![254016]⟩
abbrev S254016x1 : Shape := ⟨2, ![254016, 1]⟩
abbrev S8x254016x64 : Shape := ⟨3, ![8, 254016, 64]⟩
abbrev S8x28224x576 : Shape := ⟨3, ![8, 28224, 576]⟩
abbrev S225792x576 : Shape := ⟨2, ![225792, 576]⟩
abbrev S1x32 : Shape := ⟨2, ![1, 32]⟩
abbrev S225792x32 : Shape := ⟨2, ![225792, 32]⟩
abbrev S4608x576 : Shape := ⟨2, ![4608, 576]⟩
abbrev S4608x32 : Shape := ⟨2, ![4608, 32]⟩
abbrev S8x28224x32 : Shape := ⟨3, ![8, 28224, 32]⟩

abbrev nBuf : Space → Nat
  | .hbm => 47
  | .vmem => 6
  | .smem => 0
  | _ => 0

abbrev bufTy : (tb : Table) → Fin (tcTables nBuf tb) → BufTy
  | .hbm, ⟨0, _⟩ => ⟨S8x7056x64, .f32⟩
  | .hbm, ⟨1, _⟩ => ⟨S84672, .f32⟩
  | .hbm, ⟨2, _⟩ => ⟨S576x32, .f32⟩
  | .hbm, ⟨3, _⟩ => ⟨S32, .f32⟩
  | .hbm, ⟨4, _⟩ => ⟨S84672, .i32⟩
  | .hbm, ⟨5, _⟩ => ⟨S84672, .i32⟩
  | .hbm, ⟨6, _⟩ => ⟨S28224x9, .i32⟩
  | .hbm, ⟨7, _⟩ => ⟨S_, .i32⟩
  | .hbm, ⟨8, _⟩ => ⟨S84672, .i32⟩
  | .hbm, ⟨9, _⟩ => ⟨S84672, .i1⟩
  | .hbm, ⟨10, _⟩ => ⟨S_, .i32⟩
  | .hbm, ⟨11, _⟩ => ⟨S84672, .i32⟩
  | .hbm, ⟨12, _⟩ => ⟨S84672, .i32⟩
  | .hbm, ⟨13, _⟩ => ⟨S84672, .i32⟩
  | .hbm, ⟨14, _⟩ => ⟨S84672x1, .i32⟩
  | .hbm, ⟨15, _⟩ => ⟨S8x84672x64, .f32⟩
  | .hbm, ⟨16, _⟩ => ⟨S1x84672x1, .f32⟩
  | .hbm, ⟨17, _⟩ => ⟨S8x84672x64, .f32⟩
  | .hbm, ⟨18, _⟩ => ⟨S8x84672x64, .f32⟩
  | .hbm, ⟨19, _⟩ => ⟨S_, .f32⟩
  | .hbm, ⟨20, _⟩ => ⟨S8x28224x64, .f32⟩
  | .hbm, ⟨21, _⟩ => ⟨S_, .i32⟩
  | .hbm, ⟨22, _⟩ => ⟨S84672, .i32⟩
  | .hbm, ⟨23, _⟩ => ⟨S84672, .i1⟩
  | .hbm, ⟨24, _⟩ => ⟨S_, .i32⟩
  | .hbm, ⟨25, _⟩ => ⟨S84672, .i32⟩
  | .hbm, ⟨26, _⟩ => ⟨S84672, .i32⟩
  | .hbm, ⟨27, _⟩ => ⟨S84672, .i32⟩
  | .hbm, ⟨28, _⟩ => ⟨S84672x1, .i32⟩
  | .hbm, ⟨29, _⟩ => ⟨S8x28224x64, .f32⟩
  | .hbm, ⟨30, _⟩ => ⟨S254016, .i32⟩
  | .hbm, ⟨31, _⟩ => ⟨S_, .i32⟩
  | .hbm, ⟨32, _⟩ => ⟨S254016, .i32⟩
  | .hbm, ⟨33, _⟩ => ⟨S254016, .i1⟩
  | .hbm, ⟨34, _⟩ => ⟨S_, .i32⟩
  | .hbm, ⟨35, _⟩ => ⟨S254016, .i32⟩
  | .hbm, ⟨36, _⟩ => ⟨S254016, .i32⟩
  | .hbm, ⟨37, _⟩ => ⟨S254016, .i32⟩
  | .hbm, ⟨38, _⟩ => ⟨S254016x1, .i32⟩
  | .hbm, ⟨39, _⟩ => ⟨S8x254016x64, .f32⟩
  | .hbm, ⟨40, _⟩ => ⟨S8x28224x576, .f32⟩
  | .hbm, ⟨41, _⟩ => ⟨S225792x576, .f32⟩
  | .hbm, ⟨42, _⟩ => ⟨S225792x576, .bf16⟩
  | .hbm, ⟨43, _⟩ => ⟨S576x32, .bf16⟩
  | .hbm, ⟨44, _⟩ => ⟨S1x32, .f32⟩
  | .hbm, ⟨45, _⟩ => ⟨S225792x32, .f32⟩
  | .hbm, ⟨46, _⟩ => ⟨S8x28224x32, .f32⟩
  | .local _ .vmem, ⟨0, _⟩ => ⟨S4608x576, .bf16⟩
  | .local _ .vmem, ⟨1, _⟩ => ⟨S4608x576, .bf16⟩
  | .local _ .vmem, ⟨2, _⟩ => ⟨S576x32, .bf16⟩
  | .local _ .vmem, ⟨3, _⟩ => ⟨S1x32, .f32⟩
  | .local _ .vmem, ⟨4, _⟩ => ⟨S4608x32, .f32⟩
  | .local _ .vmem, ⟨5, _⟩ => ⟨S4608x32, .f32⟩
  | _, _ => ⟨S8x7056x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4608x576 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S576x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4608x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S84672 : S_.BroadcastsInDim S84672 (![] : Fin 0 → Fin S84672.rank)
  bcast_S84672_S84672x1_0 : S84672.BroadcastsInDim S84672x1 (![0] : Fin 1 → Fin S84672x1.rank)
  bcast_S84672_S1x84672x1_1 : S84672.BroadcastsInDim S1x84672x1 (![1] : Fin 1 → Fin S1x84672x1.rank)
  bcast_S1x84672x1_S8x84672x64_0_1_2 : S1x84672x1.BroadcastsInDim S8x84672x64 (![0, 1, 2] : Fin 3 → Fin S8x84672x64.rank)
  bcast_S_S8x28224x64 : S_.BroadcastsInDim S8x28224x64 (![] : Fin 0 → Fin S8x28224x64.rank)
  shapeCasts_S28224x9_S254016 : S28224x9.ShapeCasts S254016
  bcast_S_S254016 : S_.BroadcastsInDim S254016 (![] : Fin 0 → Fin S254016.rank)
  bcast_S254016_S254016x1_0 : S254016.BroadcastsInDim S254016x1 (![0] : Fin 1 → Fin S254016x1.rank)
  shapeCasts_S8x254016x64_S8x28224x576 : S8x254016x64.ShapeCasts S8x28224x576
  shapeCasts_S8x28224x576_S225792x576 : S8x28224x576.ShapeCasts S225792x576
  bitsLt_bf16_f32 : FTy.bits .bf16 < FTy.bits .f32
  shapeCasts_S32_S1x32 : S32.ShapeCasts S1x32
  inb_S4608x576_S4608x576_0_0 : ∀ a, (![0, 0] : Fin 2 → Nat) a + S4608x576.size a ≤ S4608x576.size a
  h_S4608x576 : 0 < S4608x576.numel
  shapeCasts_S4608x576_S4608x576 : S4608x576.ShapeCasts S4608x576
  inb_S576x32_S576x32_0_0 : ∀ a, (![0, 0] : Fin 2 → Nat) a + S576x32.size a ≤ S576x32.size a
  h_S576x32 : 0 < S576x32.numel
  shapeCasts_S576x32_S576x32 : S576x32.ShapeCasts S576x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4608x32 : S1x32.Broadcasts S4608x32
  inb_S4608x32_S4608x32_0_0 : ∀ a, (![0, 0] : Fin 2 → Nat) a + S4608x32.size a ≤ S4608x32.size a
  h_S4608x32 : 0 < S4608x32.numel
  shapeCasts_S225792x32_S8x28224x32 : S225792x32.ShapeCasts S8x28224x32
  gather_S8x7056x64_S84672x1_S8x84672x64_02_1_n_n_1_1_8164_wf : GatherDims.WF S8x7056x64 S84672x1 S8x84672x64 [0, 2] [1] [] [1] [] 1 ![8, 1, 64]
  scatter_S8x28224x64_S84672x1_S8x84672x64_02_1_1_1_wf : ScatterDims.WF S8x28224x64 S84672x1 S8x84672x64 [0, 2] [1] [1] 1
  gather_S8x28224x64_S254016x1_S8x254016x64_02_1_n_n_1_1_8164_wf : GatherDims.WF S8x28224x64 S254016x1 S8x254016x64 [0, 2] [1] [] [1] [] 1 ![8, 1, 64]
  dot_S4608x576_S576x32_S4608x32_1_0_0_1_n_n_wf : DotDims.WF S4608x576 S576x32 S4608x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4608x576.size a ≤ S225792x576.size a
  hwx0_0 : ∀ i : grid0.Coords, EltTy.bits .bf16 = 32 ∨ (Rect.block (s := S225792x576) S4608x576.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S576x32.size a ≤ S576x32.size a
  hwx0_1 : ∀ i : grid0.Coords, EltTy.bits .bf16 = 32 ∨ (Rect.block (s := S576x32) S576x32.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4608x32.size a ≤ S225792x32.size a
  hwx0_3 : ∀ i : grid0.Coords, EltTy.bits .f32 = 32 ∨ (Rect.block (s := S225792x32) S4608x32.size (cc0_transform_3 i) (hinb0_3 i)).WholeWords (EltTy.packing .f32)

variable [Facts₀]

def gather_S8x7056x64_S84672x1_S8x84672x64_02_1_n_n_1_1_8164 : GatherDims S8x7056x64 S84672x1 S8x84672x64 where
  offsetDims := [0, 2]
  collapsedSliceDims := [1]
  operandBatchingDims := []
  startIndicesBatchingDims := []
  startIndexMap := [1]
  indexVectorDim := 1
  sliceSizes := ![8, 1, 64]
  wf := gather_S8x7056x64_S84672x1_S8x84672x64_02_1_n_n_1_1_8164_wf
def scatter_S8x28224x64_S84672x1_S8x84672x64_02_1_1_1 : ScatterDims S8x28224x64 S84672x1 S8x84672x64 where
  updateWindowDims := [0, 2]
  insertedWindowDims := [1]
  scatterDimsToOperandDims := [1]
  indexVectorDim := 1
  wf := scatter_S8x28224x64_S84672x1_S8x84672x64_02_1_1_1_wf
def gather_S8x28224x64_S254016x1_S8x254016x64_02_1_n_n_1_1_8164 : GatherDims S8x28224x64 S254016x1 S8x254016x64 where
  offsetDims := [0, 2]
  collapsedSliceDims := [1]
  operandBatchingDims := []
  startIndicesBatchingDims := []
  startIndexMap := [1]
  indexVectorDim := 1
  sliceSizes := ![8, 1, 64]
  wf := gather_S8x28224x64_S254016x1_S8x254016x64_02_1_n_n_1_1_8164_wf
def dot_S4608x576_S576x32_S4608x32_1_0_0_1_n_n : DotDims S4608x576 S576x32 S4608x32 where
  lhsContracting := [1]
  rhsContracting := [0]
  lhsNonContracting := [0]
  rhsNonContracting := [1]
  lhsBatch := []
  rhsBatch := []
  wf := dot_S4608x576_S576x32_S4608x32_1_0_0_1_n_n_wf

abbrev win0_0 : Pipeline.Window sig grid0 :=
  Pipeline.Window.ofSpec (Memref.whole main_v28) S4608x576.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S576x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S4608x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x7056x64 : Shape := ⟨3, ![8, 7056, 64]⟩
abbrev S84672 : Shape := ⟨1, ![84672]⟩
abbrev S576x32 : Shape := ⟨2, ![576, 32]⟩
abbrev S32 : Shape := ⟨1, ![32]⟩
abbrev S28224x9 : Shape := ⟨2, ![28224, 9]⟩
abbrev S_ : Shape := ⟨0, ![]⟩
abbrev S84672x1 : Shape := ⟨2, ![84672, 1]⟩
abbrev S8x84672x64 : Shape := ⟨3, ![8, 84672, 64]⟩
abbrev S1x84672x1 : Shape := ⟨3, ![1, 84672, 1]⟩
abbrev S8x28224x64 : Shape := ⟨3, ![8, 28224, 64]⟩
abbrev S254016 : Shape := ⟨1, ![254016]⟩
abbrev S254016x1 : Shape := ⟨2, ![254016, 1]⟩
abbrev S8x254016x64 : Shape := ⟨3, ![8, 254016, 64]⟩
abbrev S8x28224x576 : Shape := ⟨3, ![8, 28224, 576]⟩
abbrev S8x28224x32 : Shape := ⟨3, ![8, 28224, 32]⟩
abbrev S1x1x32 : Shape := ⟨3, ![1, 1, 32]⟩

abbrev nBuf : Space → Nat
  | .hbm => 48
  | .vmem => 0
  | .smem => 0
  | _ => 0

abbrev bufTy : (tb : Table) → Fin (tcTables nBuf tb) → BufTy
  | .hbm, ⟨0, _⟩ => ⟨S8x7056x64, .f32⟩
  | .hbm, ⟨1, _⟩ => ⟨S84672, .f32⟩
  | .hbm, ⟨2, _⟩ => ⟨S576x32, .f32⟩
  | .hbm, ⟨3, _⟩ => ⟨S32, .f32⟩
  | .hbm, ⟨4, _⟩ => ⟨S84672, .i32⟩
  | .hbm, ⟨5, _⟩ => ⟨S84672, .i32⟩
  | .hbm, ⟨6, _⟩ => ⟨S28224x9, .i32⟩
  | .hbm, ⟨7, _⟩ => ⟨S_, .i32⟩
  | .hbm, ⟨8, _⟩ => ⟨S84672, .i32⟩
  | .hbm, ⟨9, _⟩ => ⟨S84672, .i1⟩
  | .hbm, ⟨10, _⟩ => ⟨S_, .i32⟩
  | .hbm, ⟨11, _⟩ => ⟨S84672, .i32⟩
  | .hbm, ⟨12, _⟩ => ⟨S84672, .i32⟩
  | .hbm, ⟨13, _⟩ => ⟨S84672, .i32⟩
  | .hbm, ⟨14, _⟩ => ⟨S84672x1, .i32⟩
  | .hbm, ⟨15, _⟩ => ⟨S8x84672x64, .f32⟩
  | .hbm, ⟨16, _⟩ => ⟨S1x84672x1, .f32⟩
  | .hbm, ⟨17, _⟩ => ⟨S8x84672x64, .f32⟩
  | .hbm, ⟨18, _⟩ => ⟨S8x84672x64, .f32⟩
  | .hbm, ⟨19, _⟩ => ⟨S_, .f32⟩
  | .hbm, ⟨20, _⟩ => ⟨S8x28224x64, .f32⟩
  | .hbm, ⟨21, _⟩ => ⟨S_, .i32⟩
  | .hbm, ⟨22, _⟩ => ⟨S84672, .i32⟩
  | .hbm, ⟨23, _⟩ => ⟨S84672, .i1⟩
  | .hbm, ⟨24, _⟩ => ⟨S_, .i32⟩
  | .hbm, ⟨25, _⟩ => ⟨S84672, .i32⟩
  | .hbm, ⟨26, _⟩ => ⟨S84672, .i32⟩
  | .hbm, ⟨27, _⟩ => ⟨S84672, .i32⟩
  | .hbm, ⟨28, _⟩ => ⟨S84672x1, .i32⟩
  | .hbm, ⟨29, _⟩ => ⟨S8x28224x64, .f32⟩
  | .hbm, ⟨30, _⟩ => ⟨S254016, .i32⟩
  | .hbm, ⟨31, _⟩ => ⟨S_, .i32⟩
  | .hbm, ⟨32, _⟩ => ⟨S254016, .i32⟩
  | .hbm, ⟨33, _⟩ => ⟨S254016, .i1⟩
  | .hbm, ⟨34, _⟩ => ⟨S_, .i32⟩
  | .hbm, ⟨35, _⟩ => ⟨S254016, .i32⟩
  | .hbm, ⟨36, _⟩ => ⟨S254016, .i32⟩
  | .hbm, ⟨37, _⟩ => ⟨S254016, .i32⟩
  | .hbm, ⟨38, _⟩ => ⟨S254016x1, .i32⟩
  | .hbm, ⟨39, _⟩ => ⟨S8x254016x64, .f32⟩
  | .hbm, ⟨40, _⟩ => ⟨S8x28224x576, .f32⟩
  | .hbm, ⟨41, _⟩ => ⟨S8x28224x32, .f32⟩
  | .hbm, ⟨42, _⟩ => ⟨S1x1x32, .f32⟩
  | .hbm, ⟨43, _⟩ => ⟨S8x28224x32, .f32⟩
  | .hbm, ⟨44, _⟩ => ⟨S8x28224x32, .f32⟩
  | .hbm, ⟨45, _⟩ => ⟨S_, .f32⟩
  | .hbm, ⟨46, _⟩ => ⟨S8x28224x32, .f32⟩
  | .hbm, ⟨47, _⟩ => ⟨S8x28224x32, .f32⟩
  | _, _ => ⟨S8x7056x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩

abbrev nD : Nat := 1
abbrev τ : Topo := Topo.v7x

variable {F : FTy → Type} [FloatOps F]

class Facts₀ : Prop where
  bcast_S_S84672 : S_.BroadcastsInDim S84672 (![] : Fin 0 → Fin S84672.rank)
  bcast_S84672_S84672x1_0 : S84672.BroadcastsInDim S84672x1 (![0] : Fin 1 → Fin S84672x1.rank)
  bcast_S84672_S1x84672x1_1 : S84672.BroadcastsInDim S1x84672x1 (![1] : Fin 1 → Fin S1x84672x1.rank)
  bcast_S1x84672x1_S8x84672x64_0_1_2 : S1x84672x1.BroadcastsInDim S8x84672x64 (![0, 1, 2] : Fin 3 → Fin S8x84672x64.rank)
  bcast_S_S8x28224x64 : S_.BroadcastsInDim S8x28224x64 (![] : Fin 0 → Fin S8x28224x64.rank)
  shapeCasts_S28224x9_S254016 : S28224x9.ShapeCasts S254016
  bcast_S_S254016 : S_.BroadcastsInDim S254016 (![] : Fin 0 → Fin S254016.rank)
  bcast_S254016_S254016x1_0 : S254016.BroadcastsInDim S254016x1 (![0] : Fin 1 → Fin S254016x1.rank)
  shapeCasts_S8x254016x64_S8x28224x576 : S8x254016x64.ShapeCasts S8x28224x576
  bcast_S32_S1x1x32_2 : S32.BroadcastsInDim S1x1x32 (![2] : Fin 1 → Fin S1x1x32.rank)
  bcast_S1x1x32_S8x28224x32_0_1_2 : S1x1x32.BroadcastsInDim S8x28224x32 (![0, 1, 2] : Fin 3 → Fin S8x28224x32.rank)
  bcast_S_S8x28224x32 : S_.BroadcastsInDim S8x28224x32 (![] : Fin 0 → Fin S8x28224x32.rank)
  gather_S8x7056x64_S84672x1_S8x84672x64_02_1_n_n_1_1_8164_wf : GatherDims.WF S8x7056x64 S84672x1 S8x84672x64 [0, 2] [1] [] [1] [] 1 ![8, 1, 64]
  scatter_S8x28224x64_S84672x1_S8x84672x64_02_1_1_1_wf : ScatterDims.WF S8x28224x64 S84672x1 S8x84672x64 [0, 2] [1] [1] 1
  gather_S8x28224x64_S254016x1_S8x254016x64_02_1_n_n_1_1_8164_wf : GatherDims.WF S8x28224x64 S254016x1 S8x254016x64 [0, 2] [1] [] [1] [] 1 ![8, 1, 64]
  dot_S8x28224x576_S576x32_S8x28224x32_2_0_01_1_n_n_wf : DotDims.WF S8x28224x576 S576x32 S8x28224x32 [2] [0] [0, 1] [1] [] []

variable [Facts₀]

def gather_S8x7056x64_S84672x1_S8x84672x64_02_1_n_n_1_1_8164 : GatherDims S8x7056x64 S84672x1 S8x84672x64 where
  offsetDims := [0, 2]
  collapsedSliceDims := [1]
  operandBatchingDims := []
  startIndicesBatchingDims := []
  startIndexMap := [1]
  indexVectorDim := 1
  sliceSizes := ![8, 1, 64]
  wf := gather_S8x7056x64_S84672x1_S8x84672x64_02_1_n_n_1_1_8164_wf
def scatter_S8x28224x64_S84672x1_S8x84672x64_02_1_1_1 : ScatterDims S8x28224x64 S84672x1 S8x84672x64 where
  updateWindowDims := [0, 2]
  insertedWindowDims := [1]
  scatterDimsToOperandDims := [1]
  indexVectorDim := 1
  wf := scatter_S8x28224x64_S84672x1_S8x84672x64_02_1_1_1_wf
def gather_S8x28224x64_S254016x1_S8x254016x64_02_1_n_n_1_1_8164 : GatherDims S8x28224x64 S254016x1 S8x254016x64 where
  offsetDims := [0, 2]
  collapsedSliceDims := [1]
  operandBatchingDims := []
  startIndicesBatchingDims := []
  startIndexMap := [1]
  indexVectorDim := 1
  sliceSizes := ![8, 1, 64]
  wf := gather_S8x28224x64_S254016x1_S8x254016x64_02_1_n_n_1_1_8164_wf
def dot_S8x28224x576_S576x32_S8x28224x32_2_0_01_1_n_n : DotDims S8x28224x576 S576x32 S8x28224x32 where
  lhsContracting := [2]
  rhsContracting := [0]
  lhsNonContracting := [0, 1]
  rhsNonContracting := [1]
  lhsBatch := []
  rhsBatch := []
  wf := dot_S8x28224x576_S576x32_S8x28224x32_2_0_01_1_n_n_wf

class Facts : Prop extends Facts₀ where

variable [Facts]
-- ==== Proof.BodyValue.lean ====
/-
  What the kernel body stores, read entry by entry on the extended reals.

  The body loads a block `x` of 4608 rows of 576 features, the whole weight matrix `w` (576 × 32) and the bias
  row `b` (1 × 32), and stores `max (x · w + b) 0`: at row `r` and output channel `o` that is
  `max ((∑ k, x r k * w k o) + b 0 o) 0`.  The matrix product starts from a zero accumulator, so at the ideal
  instance it is exactly the sum over the contracted axis; the bias row is broadcast over the rows; and the final
  `maximum` against the splat of zero is the positive part.
-/
import proofs.«138407_j53687091200507_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## The matrix product's operand indices: rows × contraction, contraction × columns -/

theorem lhs_row (i : S4608x32.Idx) (q : dot_S4608x576_S576x32_S4608x32_1_0_0_1_n_n.contr.Idx) :
    (dot_S4608x576_S576x32_S4608x32_1_0_0_1_n_n.lhsIdx i q 0).val = (i 0).val := by
  unfold DotDims.lhsIdx
  rw [dif_neg (show ¬(0 : Fin S4608x576.rank) ∈ dot_S4608x576_S576x32_S4608x32_1_0_0_1_n_n.lhsBatch by decide), dif_pos (show (0 : Fin S4608x576.rank) ∈ dot_S4608x576_S576x32_S4608x32_1_0_0_1_n_n.lhsNonContracting by decide)]
  rfl
theorem lhs_contr (i : S4608x32.Idx) (q : dot_S4608x576_S576x32_S4608x32_1_0_0_1_n_n.contr.Idx) :
    (dot_S4608x576_S576x32_S4608x32_1_0_0_1_n_n.lhsIdx i q 1).val = (q ⟨0, by decide⟩).val :=
  dot_S4608x576_S576x32_S4608x32_1_0_0_1_n_n.lhsIdx_val_of_single rfl i q
theorem rhs_contr (i : S4608x32.Idx) (q : dot_S4608x576_S576x32_S4608x32_1_0_0_1_n_n.contr.Idx) :
    (dot_S4608x576_S576x32_S4608x32_1_0_0_1_n_n.rhsIdx i q 0).val = (q ⟨0, by decide⟩).val :=
  dot_S4608x576_S576x32_S4608x32_1_0_0_1_n_n.rhsIdx_val_of_single rfl i q
theorem rhs_col (i : S4608x32.Idx) (q : dot_S4608x576_S576x32_S4608x32_1_0_0_1_n_n.contr.Idx) :
    (dot_S4608x576_S576x32_S4608x32_1_0_0_1_n_n.rhsIdx i q 1).val = (i 1).val := by
  unfold DotDims.rhsIdx
  rw [dif_neg (show ¬(1 : Fin S576x32.rank) ∈ dot_S4608x576_S576x32_S4608x32_1_0_0_1_n_n.rhsBatch by decide), dif_pos (show (1 : Fin S576x32.rank) ∈ dot_S4608x576_S576x32_S4608x32_1_0_0_1_n_n.rhsNonContracting by decide)]
  rfl

/-- The product into a zero accumulator, at row `r` and column `o`: the sum over the 576 contracted features. -/
theorem matmul_zero_at (x : FVec Ideal S4608x576 .bf16) (w : FVec Ideal S576x32 .bf16) (r : Fin 4608) (o : Fin 32) :
    matmul dot_S4608x576_S576x32_S4608x32_1_0_0_1_n_n none x w (constant S4608x32 .f32 0x00000000#32) (ix2 r o)
      = ∑ k : Fin 576, x (ix2 r k) * w (ix2 k o) := by
  show FloatOps.matmul dot_S4608x576_S576x32_S4608x32_1_0_0_1_n_n none x w (constant S4608x32 .f32 0x00000000#32) (ix2 r o) = _
  rw [Ideal.matmul_constant_zero_apply, ← Equiv.sum_comp (contrEquiv1 dot_S4608x576_S576x32_S4608x32_1_0_0_1_n_n 576 rfl rfl).symm]
  refine Finset.sum_congr rfl fun k _ => ?_
  have hk := contrEquiv1_symm_val dot_S4608x576_S576x32_S4608x32_1_0_0_1_n_n 576 rfl rfl k
  have el : dot_S4608x576_S576x32_S4608x32_1_0_0_1_n_n.lhsIdx (ix2 r o) ((contrEquiv1 dot_S4608x576_S576x32_S4608x32_1_0_0_1_n_n 576 rfl rfl).symm k) = ix2 r k := funext fun a => Fin.ext (by
    match a with
    | ⟨0, _⟩ => exact lhs_row _ _
    | ⟨1, _⟩ => exact (lhs_contr _ _).trans hk)
  have er : dot_S4608x576_S576x32_S4608x32_1_0_0_1_n_n.rhsIdx (ix2 r o) ((contrEquiv1 dot_S4608x576_S576x32_S4608x32_1_0_0_1_n_n 576 rfl rfl).symm k) = ix2 k o := funext fun a => Fin.ext (by
    match a with
    | ⟨0, _⟩ => exact (rhs_contr _ _).trans hk
    | ⟨1, _⟩ => exact rhs_col _ _)
  rw [el, er]

/-- The stored value at row `r`, channel `o`: the positive part of the row's product with the weights plus the bias. -/
theorem pay_at (x : Vec Ideal S4608x576 .bf16) (w : Vec Ideal S576x32 .bf16) (b : Vec Ideal S1x32 .f32) (r : Fin 4608) (o : Fin 32) :
    k0_pay1 (F := Ideal) x w b (ix2 r o)
      = max ((∑ k : Fin 576, x (ix2 r k) * w (ix2 k o)) + b (ix2 (0 : Fin 1) o)) (Ideal.ofBits .f32 0x00000000#32) := by
  unfold k0_pay1
  rw [shapeCast_self, shapeCast_self, shapeCast_self]
  show max (matmul (F := Ideal) dot_S4608x576_S576x32_S4608x32_1_0_0_1_n_n none x w (constant (F := Ideal) S4608x32 .f32 0x00000000#32) (ix2 r o)
      + broadcastTo S4608x32 b broadcasts_S1x32_S4608x32 (ix2 r o)) _ = _
  rw [matmul_zero_at, broadcastTo_1b_ab_apply]
  rfl

end Cert.KernelIdeal.Body

end
-- ==== Proof.Blocks.lean ====
/-
  From the grid's 49 row blocks to the whole result array, on the extended reals.

  The region's inputs are a feature matrix `X` of 225792 rows by 576 features, the weights `w` (576 × 32) and the
  bias row `b` (1 × 32).  Grid point `t` stages rows `4608 t … 4608 t + 4607` of `X` (all of `w` and `b`)
  and writes back rows `4608 t … 4608 t + 4607` of the result.  Since each stored entry depends only on its own
  row of `X`, every written block is the restriction of ONE function of the whole arrays,
      `linRelu X w b (i, o) = max ((∑ k, X i k * w k o) + b 0 o) 0`,
  and as 49 · 4608 = 225792 the blocks cover every row: the array ends holding `linRelu X w b`.
-/
import proofs.«138407_j53687091200507_1_alg».proof.Proof.Gen.KernelIdeal.Frame
import proofs.«138407_j53687091200507_1_alg».proof.Proof.BodyValue
import Idealize.ShloMosaic.Lib.Pipeline.Value

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx

/-- Linear layer and positive part, entry by entry: row `i` of `X` against column `o` of `w`, plus the bias. -/
def linRelu (X : S225792x576.Idx → EReal) (w : S576x32.Idx → EReal) (b : S1x32.Idx → EReal) : S225792x32.Idx → EReal :=
  fun i => max ((∑ k : Fin 576, X (ix2 (i 0) k) * w (ix2 k (i 1))) + b (ix2 (0 : Fin 1) (i 1))) (Ideal.ofBits .f32 0x00000000#32)

/-- A stored block entry is the whole-array function at the entry's place in the array: row `4608 t + r`. -/
theorem block_value (x : Vec Ideal S4608x576 .bf16) (w : Vec Ideal S576x32 .bf16) (b : Vec Ideal S1x32 .f32)
    (X : S225792x576.Idx → EReal) (t : Nat)
    (hx : ∀ (r : Fin 4608) (k : Fin 576) (i : S225792x576.Idx), (i 0).val = t * 4608 + r.val → (i 1).val = k.val → x (ix2 r k) = X i)
    (j : S4608x32.Idx) (i : S225792x32.Idx) (hi0 : (i 0).val = t * 4608 + (j 0).val) (hi1 : (i 1).val = (j 1).val) :
    k0_pay1 (F := Ideal) x w b j = linRelu X w b i := by
  obtain ⟨r, o, rfl⟩ : ∃ (r : Fin 4608) (o : Fin 32), j = ix2 r o := ⟨j 0, j 1, eq_ix2 j⟩
  rw [Body.pay_at]
  unfold linRelu
  have ho : i 1 = o := Fin.ext hi1
  have e : ∀ k : Fin 576, x (ix2 r k) = X (ix2 (i 0) k) := fun k => hx r k _ hi0 rfl
  rw [ho]
  simp only [e]

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the feature blocks and the result blocks step down the rows with the
    point; the weights and the bias stay at block zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The staged feature block at point `t` is rows `4608 t …` of the feature matrix as the region finds it. -/
theorem xblk_apply (c : Dev nD) (t : Fin cfg0.N) (y : S4608x576.Idx) (k : S225792x576.Idx)
    (hk0 : (k 0).val = t.val * 4608 + (y 0).val) (hk1 : (k 1).val = (y 1).val) :
    (iblk m c 0 t : Vec Ideal S4608x576 .bf16) y = (V m c main_v28 : S225792x576.Idx → EReal) k := by
  obtain ⟨e0, e1, -⟩ := idx_facts t
  unfold iblk
  rw [View.read_apply]
  show V m c main_v28 _ = V m c main_v28 _
  congr 1
  funext a
  apply Fin.ext
  match a with
  | ⟨0, _⟩ => show win0_0.index t (0 : Fin 2) * 4608 + 1 * (y 0).val = (k 0).val; rw [e0, hk0]; omega
  | ⟨1, _⟩ => show win0_0.index t (1 : Fin 2) * 576 + 1 * (y 1).val = (k 1).val; rw [e1, hk1]; omega

/-- The staged weights are the whole weight matrix. -/
theorem wblk_eq (c : Dev nD) (t : Fin cfg0.N) : (iblk m c 1 t : Vec Ideal S576x32 .bf16) = (V m c main_v29 : S576x32.Idx → EReal) := by
  obtain ⟨-, -, e0, e1, -⟩ := idx_facts t
  unfold iblk
  funext y
  rw [View.read_apply]
  show V m c main_v29 _ = V m c main_v29 _
  congr 1
  funext a
  apply Fin.ext
  match a with
  | ⟨0, _⟩ => show win0_1.index t (0 : Fin 2) * 576 + 1 * (y 0).val = (y 0).val; rw [e0]; omega
  | ⟨1, _⟩ => show win0_1.index t (1 : Fin 2) * 32 + 1 * (y 1).val = (y 1).val; rw [e1]; omega

/-- The staged bias is the whole bias row. -/
theorem bblk_eq (c : Dev nD) (t : Fin cfg0.N) : (iblk m c 2 t : Vec Ideal S1x32 .f32) = (V m c main_v30 : S1x32.Idx → EReal) := by
  obtain ⟨-, -, -, -, e0, e1, -⟩ := idx_facts t
  unfold iblk
  funext y
  rw [View.read_apply]
  show V m c main_v30 _ = V m c main_v30 _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 32 + 1 * (y 1).val = (y 1).val; rw [e1]; omega

/-- The whole result array, from the arrays as the region finds them. -/
abbrev result (c : Dev nD) : S225792x32.Idx → EReal :=
  linRelu (V m c main_v28) (V m c main_v29) (V m c main_v30)

/-- What point `t` writes back is block `t` of `result`. -/
theorem flushed_eq (c : Dev nD) (t : Fin cfg0.N) :
    (dats m 0 c).flushed 3 t = ((cfg0.win 3).blk t).view.read (Elt Ideal) (result m c) := by
  show (cfg0.win 3).cut (grid0.coords t) ((dats m 0 c).after 3 t) = _
  rw [after0_3]
  unfold out0_3
  rw [View.canon_unit_zero hz]
  simp only [View.ld_unit_zero (S := S4608x576) hz, View.ld_unit_zero (S := S576x32) hz, View.ld_unit_zero (S := S1x32) hz]
  rw [wblk_eq, bblk_eq]
  obtain ⟨-, -, -, -, -, -, e0, e1⟩ := idx_facts t
  funext j
  show k0_pay1 (F := Ideal) (iblk m c 0 t) (V m c main_v29) (V m c main_v30) j = result m c (((cfg0.win 3).blk t).view.emb j)
  refine block_value (iblk m c 0 t) (V m c main_v29) (V m c main_v30) (V m c main_v28) t.val
    (fun r k i h0 h1 => xblk_apply m c t (ix2 r k) i h0 h1) j _ ?_ ?_
  · show win0_3.index t (0 : Fin 2) * 4608 + 1 * (j 0).val = t.val * 4608 + (j 0).val; rw [e0]; omega
  · show win0_3.index t (1 : Fin 2) * 32 + 1 * (j 1).val = (j 1).val; rw [e1]; omega

/-- An index of the result array is in point `t`'s block iff each coordinate is in the block's range. -/
theorem mem_blk (t : Fin cfg0.N) (i : S225792x32.Idx) :
    i ∈ ((cfg0.win 3).blk t).view.set ↔ ∀ a : Fin 2, win0_3.index t a * S4608x32.size a ≤ (i a).val ∧ (i a).val < win0_3.index t a * S4608x32.size a + S4608x32.size a := by
  show i ∈ ((View.whole main_v31).slice (win0_3.rect t)).set ↔ _
  rw [View.set_slice_whole, Rect.mem_set_unit]
  exact Iff.rfl

/-- Row `i` is written by point `i / 4608`. -/
theorem cover (i : S225792x32.Idx) : ∃ t : Fin cfg0.N, (cfg0.win 3).flush t = true ∧ i ∈ ((cfg0.win 3).blk t).view.set := by
  have h0 : (i 0).val < 225792 := (i 0).isLt
  have h1 : (i 1).val < 32 := (i 1).isLt
  have hN : cfg0.N = 49 := N_0
  refine ⟨⟨(i 0).val / 4608, by rw [hN]; omega⟩, flush0_3 _, ?_⟩
  rw [mem_blk]
  obtain ⟨-, -, -, -, -, -, e0, e1⟩ := idx_facts ⟨(i 0).val / 4608, by rw [hN]; omega⟩
  intro a
  match a with
  | ⟨0, _⟩ =>
    show win0_3.index _ (0 : Fin 2) * 4608 ≤ (i 0).val ∧ (i 0).val < win0_3.index _ (0 : Fin 2) * 4608 + 4608
    rw [e0]; show (i 0).val / 4608 * 4608 ≤ (i 0).val ∧ (i 0).val < (i 0).val / 4608 * 4608 + 4608; omega
  | ⟨1, _⟩ =>
    show win0_3.index _ (1 : Fin 2) * 32 ≤ (i 1).val ∧ (i 1).val < win0_3.index _ (1 : Fin 2) * 32 + 32
    rw [e1]; omega

/-- The result array after the run. -/
theorem final (c : Dev nD) : (dats m 0 c).arrAt 3 cfg0.N = result m c :=
  (dats m 0 c).arrAt_eq_of_cover 3 (result m c) (fun t _ => flushed_eq m c t) cover

end Cert.KernelIdeal.Blocks

end
-- ==== Proof.KernelRun.lean ====
/-
  The idealized kernel program's run, read as one function of the arguments.

  Before the region the host computes the pooled features (the same gather, scatter-add and gather as the
  reference), flattens them to 225792 rows, narrows them and the weights to the shorter float format, and lays the
  bias out as one row.  The region leaves `linRelu` of those three arrays in its result array (Blocks), and the one
  host operation after the region folds the 225792 rows back into batch × 28224.  So the program's result is the
  fold-back of `linRelu` of (flattened pooled features, weights, bias row), and its arguments end unchanged.
-/
import proofs.«138407_j53687091200507_1_alg».proof.Proof.Blocks
import proofs.«138407_j53687091200507_1_alg».proof.Proof.Gen.ReferenceIdeal.Read
import Idealize.ShloMosaic.Lib.StableHlo.Run

noncomputable section

open Idealize.ShloMosaic Idealize.ShloMosaic.TcCoe Idealize.SL.Sem
open Idealize.ShloMosaic.Pipeline (Dat)

namespace Cert.KernelIdeal.Run

open Cert.KernelIdeal Cert.KernelIdeal.Gen Cert.KernelIdeal.Blocks Idealize.ShloMosaic.ValueIdx

variable (m : (ℓ : Loc nD τ sig) → Buf (Elt Ideal) ℓ) (ρ : Dev nD → PrngReg)

/-- The bias as the region finds it: the bias vector laid out as one row. -/
theorem bias_row (c : Dev nD) : (V m c main_v30 : S1x32.Idx → EReal) = shapeCast S1x32 (m ((c.tc : Thread nD τ).loc main_arg3)) shapeCasts_S32_S1x32 := by
  show StableHlo.after hostOps0 (fun b => m (c, b)) (Proc.devRef .tc main_v30) = _
  after_results
  rfl

/-- The weights as the region finds them: the weight matrix in the shorter float format. -/
theorem weights (c : Dev nD) : (V m c main_v29 : S576x32.Idx → EReal) = truncf (F := Ideal) .bf16 (m ((c.tc : Thread nD τ).loc main_arg2)) bitsLt_bf16_f32 := by
  show StableHlo.after hostOps0 (fun b => m (c, b)) (Proc.devRef .tc main_v29) = _
  after_results

set_option maxRecDepth 8192 in
set_option maxHeartbeats 2000000 in
/-- The features as the region finds them: the pooled features — the very operations the reference applies to the
    same arguments — flattened to rows and narrowed. -/
theorem features (c : Dev nD) : (V m c main_v28 : S225792x576.Idx → EReal) =
    truncf (F := Ideal) .bf16 (shapeCast S225792x576 (Cert.ReferenceIdeal.Read.val_main_v26 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6))) shapeCasts_S8x28224x576_S225792x576) bitsLt_bf16_f32 := by
  show StableHlo.after hostOps0 (fun b => m (c, b)) (Proc.devRef .tc main_v28) = _
  after_results
  rfl

/-- The region's result array in terms of the program's arguments. -/
theorem result_eq (c : Dev nD) : result m c =
    linRelu
      (truncf (F := Ideal) .bf16 (shapeCast S225792x576 (Cert.ReferenceIdeal.Read.val_main_v26 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6))) shapeCasts_S8x28224x576_S225792x576) bitsLt_bf16_f32)
      (truncf (F := Ideal) .bf16 (m ((c.tc : Thread nD τ).loc main_arg2)) bitsLt_bf16_f32)
      (shapeCast S1x32 (m ((c.tc : Thread nD τ).loc main_arg3)) shapeCasts_S32_S1x32) := by
  show linRelu (V m c main_v28) (V m c main_v29) (V m c main_v30) = _
  rw [features, weights, bias_row]

/-- The program's result: the host operation after the region folds the region's result array back. -/
theorem folded (c : Dev nD) : Pipeline.afterTail₀ cfgs (dats m) 0 (V0 m) [hostOps1] c main_v32 = shapeCast S8x28224x32 (result m c) shapeCasts_S225792x32_S8x28224x32 := by
  unfold Pipeline.afterTail₀
  show StableHlo.after hostOps1 _ (Proc.devRef .tc main_v32) = _
  after_results
  have e : Pipeline.withArrays (cfgs 0).spec c (V0 m c) (fun w => (dats m 0 c).arrAt w (cfgs 0).N) (Proc.devRef .tc main_v31) = result m c :=
    (Pipeline.withArrays_arr spec0 launch0.win.arr_inj c _ _ 3).trans (final m c)
  funext i
  show shapeCast S8x28224x32 (Pipeline.withArrays (cfgs 0).spec c (V0 m c) (fun w => (dats m 0 c).arrAt w (cfgs 0).N) (Proc.devRef .tc main_v31)) shapeCasts_S225792x32_S8x28224x32 i = _
  rw [e]

/-- Every weakly fair execution of the idealized kernel program terminates with the result at the fold-back of the
    region's result array and every argument unchanged. -/
theorem run : θ_run defs (onTc (τ := τ) (main (F := Ideal))) ⟨m, fun _ => 0, ρ⟩ fun r => ∀ c : Dev nD,
      r.2.mem ((c.tc : Thread nD τ).loc main_v32) = shapeCast S8x28224x32 (result m c) shapeCasts_S225792x32_S8x28224x32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).2 main_v32 (Pipeline.mem_restRefs_of main_v32 (by decide) (by decide))).trans (folded m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Run

end
-- ==== Proof.RefSide.lean ====
/-
  The reference program's result, read entry by entry on the extended reals.

  After gathering the pooled features `P` (a function of `x`, `val`, `row`, `col` and `indices`; batch ×
  28224 rows × 576 features) the reference contracts the feature axis against the weights, adds the bias over the
  last axis and takes the positive part:
      `out a n o = max ((∑ k, P a n k * W k o) + bias o) 0`.
-/
import proofs.«138407_j53687091200507_1_alg».proof.Proof.Gen.ReferenceIdeal.Run
import proofs.«138407_j53687091200507_1_alg».proof.Proof.Gen.ReferenceIdeal.Read
import Idealize.ShloMosaic.Lib.ValueIdx
import Idealize.ShloMosaic.PureOps.Ideal.Laws

noncomputable section

namespace Cert.ReferenceIdeal.Entry

open Cert.ReferenceIdeal Cert.ReferenceIdeal.Gen Cert.ReferenceIdeal.Read Idealize.ShloMosaic Idealize.ShloMosaic.ValueIdx

/-- The contraction's left index at output `(a, n, o)` and feature `k` is `(a, n, k)`. -/
theorem lidx_eq (a : Fin 8) (n : Fin 28224) (o : Fin 32) (k : Fin 576) : lidx_main_v27 (ix3 a n o) k = ix3 a n k :=
  funext fun d => Fin.ext (by match d with | ⟨0, _⟩ => rfl | ⟨1, _⟩ => rfl | ⟨2, _⟩ => rfl)
/-- Its right index is `(k, o)`. -/
theorem ridx_eq (a : Fin 8) (n : Fin 28224) (o : Fin 32) (k : Fin 576) : ridx_main_v27 (ix3 a n o) k = ix2 k o :=
  funext fun d => Fin.ext (by match d with | ⟨0, _⟩ => rfl | ⟨1, _⟩ => rfl)
/-- The bias, broadcast twice, is read at the output channel. -/
theorem bidx_eq (a : Fin 8) (n : Fin 28224) (o : Fin 32) : idx_main_v28 (idx_main_v29 (ix3 a n o)) = ix1 o :=
  funext fun d => Fin.ext (by match d with | ⟨0, _⟩ => rfl)

/-- The reference's result at batch `a`, row `n`, channel `o`. -/
theorem out_at (x0 : (⟨S8x7056x64, .f32⟩ : BufTy).Contents (Elt Ideal)) (x1 : (⟨S84672, .f32⟩ : BufTy).Contents (Elt Ideal))
    (x2 : (⟨S576x32, .f32⟩ : BufTy).Contents (Elt Ideal)) (x3 : (⟨S32, .f32⟩ : BufTy).Contents (Elt Ideal))
    (x4 x5 : (⟨S84672, .i32⟩ : BufTy).Contents (Elt Ideal)) (x6 : (⟨S28224x9, .i32⟩ : BufTy).Contents (Elt Ideal))
    (a : Fin 8) (n : Fin 28224) (o : Fin 32) :
    val_main_v31 (F := Ideal) x0 x1 x2 x3 x4 x5 x6 (ix3 a n o)
      = max ((∑ k : Fin 576, val_main_v26 (F := Ideal) x0 x1 x4 x5 x6 (ix3 a n k) * x2 (ix2 k o)) + x3 (ix1 o)) (Ideal.ofBits .f32 0x00000000#32) := by
  rw [val_main_v31_apply, val_main_v30_apply, val_main_v27_apply, val_main_v29_apply, val_main_v28_apply,
    val_main_call0_v0_apply, val_main_call0_cst_apply, bidx_eq]
  simp only [lidx_eq, ridx_eq]
  rfl

end Cert.ReferenceIdeal.Entry

end
-- ==== Proof.Bridge.lean ====
/-
  The kernel's result and the reference's are one function of the arguments.

  Both programs compute the pooled features `P` (batch × 28224 × 576) with the same operations.  The kernel then
  flattens batch and row into one axis of 8 · 28224 = 225792 rows, applies the linear layer and the positive part
  row by row, and folds the rows back; the reference contracts the feature axis of the unflattened array.  Row
  `a · 28224 + n` of the flattened features is row `(a, n)` of `P`, the narrowing of `P` and of the weights to
  the shorter float format is the identity on the extended reals, and the bias row `[1, 32]` read at `(0, o)` is
  the bias at `o`: entry `(a, n, o)` of either result is `max ((∑ k, P a n k * W k o) + bias o) 0`.
-/
import proofs.«138407_j53687091200507_1_alg».proof.Proof.Blocks
import proofs.«138407_j53687091200507_1_alg».proof.Proof.RefSide
import Idealize.ShloMosaic.Lib.ValueLayout

noncomputable section

namespace Cert.Bridge

open Idealize.ShloMosaic Idealize.ShloMosaic.ValueIdx
open Cert.KernelIdeal.Blocks (linRelu)

/-- The flattened features at row `a · 28224 + n`, feature `k`, are the unflattened ones at `(a, n, k)`. -/
theorem flat_features_at (Pf : Cert.KernelIdeal.S8x28224x576.Idx → EReal) (a : Fin 8) (n : Fin 28224) (k : Fin 576)
    (r : Fin 225792) (hr : r.val = a.val * 28224 + n.val) :
    shapeCast Cert.KernelIdeal.S225792x576 Pf Cert.KernelIdeal.Facts₀.shapeCasts_S8x28224x576_S225792x576 (ix2 r k) = Pf (ix3 a n k) :=
  shapeCast_apply Pf _ (ix2 r k) (ix3 a n k) (by
    rw [Shape.rowMajor_val_three, Shape.rowMajor_val_two]
    show (a.val * 28224 + n.val) * 576 + k.val = r.val * 576 + k.val
    rw [hr])

/-- Entry `(a, n, o)` of the kernel's folded-back result is entry `(a · 28224 + n, o)` of the flat one. -/
theorem fold_back_at (G : Cert.KernelIdeal.S225792x32.Idx → EReal) (a : Fin 8) (n : Fin 28224) (o : Fin 32)
    (r : Fin 225792) (hr : r.val = a.val * 28224 + n.val) :
    shapeCast Cert.KernelIdeal.S8x28224x32 G Cert.KernelIdeal.Facts₀.shapeCasts_S225792x32_S8x28224x32 (ix3 a n o) = G (ix2 r o) :=
  shapeCast_apply G _ (ix3 a n o) (ix2 r o) (by
    rw [Shape.rowMajor_val_three, Shape.rowMajor_val_two]
    show r.val * 32 + o.val = (a.val * 28224 + n.val) * 32 + o.val
    rw [hr])

/-- The kernel's result, as the term its run ends at, is the reference's result stage. -/
theorem kernel_eq_reference
    (x0 : Cert.KernelIdeal.S8x7056x64.Idx → EReal) (x1 : Cert.KernelIdeal.S84672.Idx → EReal)
    (x2 : Cert.KernelIdeal.S576x32.Idx → EReal) (x3 : Cert.KernelIdeal.S32.Idx → EReal)
    (x4 x5 : Cert.KernelIdeal.S84672.Idx → BitVec 32) (x6 : Cert.KernelIdeal.S28224x9.Idx → BitVec 32) :
    shapeCast Cert.KernelIdeal.S8x28224x32
        (linRelu
          (truncf (F := Ideal) .bf16 (shapeCast Cert.KernelIdeal.S225792x576 (Cert.ReferenceIdeal.Read.val_main_v26 (F := Ideal) x0 x1 x4 x5 x6) Cert.KernelIdeal.Facts₀.shapeCasts_S8x28224x576_S225792x576) Cert.KernelIdeal.Facts₀.bitsLt_bf16_f32)
          (truncf (F := Ideal) .bf16 x2 Cert.KernelIdeal.Facts₀.bitsLt_bf16_f32)
          (shapeCast Cert.KernelIdeal.S1x32 x3 Cert.KernelIdeal.Facts₀.shapeCasts_S32_S1x32))
        Cert.KernelIdeal.Facts₀.shapeCasts_S225792x32_S8x28224x32
      = Cert.ReferenceIdeal.Read.val_main_v31 (F := Ideal) x0 x1 x2 x3 x4 x5 x6 := by
  funext i
  obtain ⟨a, n, o, rfl⟩ : ∃ (a : Fin 8) (n : Fin 28224) (o : Fin 32), i = ix3 a n o := ⟨i 0, i 1, i 2, eq_ix3 i⟩
  have hlt : a.val * 28224 + n.val < 225792 := by have := a.isLt; have := n.isLt; omega
  rw [Cert.ReferenceIdeal.Entry.out_at, fold_back_at _ a n o ⟨a.val * 28224 + n.val, hlt⟩ rfl]
  unfold linRelu
  show max ((∑ k : Fin 576, truncf (F := Ideal) .bf16 (shapeCast Cert.KernelIdeal.S225792x576 (Cert.ReferenceIdeal.Read.val_main_v26 (F := Ideal) x0 x1 x4 x5 x6) Cert.KernelIdeal.Facts₀.shapeCasts_S8x28224x576_S225792x576) Cert.KernelIdeal.Facts₀.bitsLt_bf16_f32 (ix2 ⟨a.val * 28224 + n.val, hlt⟩ k)
      * truncf (F := Ideal) .bf16 x2 Cert.KernelIdeal.Facts₀.bitsLt_bf16_f32 (ix2 k o))
      + shapeCast Cert.KernelIdeal.S1x32 x3 Cert.KernelIdeal.Facts₀.shapeCasts_S32_S1x32 (ix2 (0 : Fin 1) o)) _ = _
  simp only [truncf_apply, flat_features_at _ a n _ ⟨a.val * 28224 + n.val, hlt⟩ rfl, shapeCast_a_1a_apply]

end Cert.Bridge

end
-- ==== Proof.lean ====
/-
  The proof of `Cert.Claim`: the spiral-convolution "linear layer + positive part" kernel against its jnp reference.

  Both programs pool `x` through the same sparse gather / scatter-add and gather the same spiral neighbourhoods,
  giving features `P` (batch 8 × 28224 rows × 576).  The reference then computes
  `max ((∑ k, P a n k * W k o) + bias o) 0` by one contraction over the feature axis.  The kernel flattens batch
  and row into 225792 rows, walks them in 49 blocks of 4608 rows, multiplies each block into a zero accumulator
  against the whole weight matrix, adds the bias row, takes the maximum with zero, and folds the rows back.  On
  the extended reals the change of float format is the identity and the product into a zero accumulator is the
  plain sum over the 576 features, so entry `(a, n, o)` of either result is the same expression: only the
  bookkeeping of rows (`a · 28224 + n`) and of blocks (`4608 t + r`) separates them, and no law beyond the
  definition of the operations is used — finiteness of the inputs plays no part.

  * Proof/BodyValue.lean  — the stored value of the kernel body at an entry;
  * Proof/Blocks.lean     — the 49 blocks are restrictions of one whole-array function, and cover the array;
  * Proof/KernelRun.lean  — the host operations around the region and the kernel program's run;
  * Proof/RefSide.lean    — the reference's result at an entry;
  * Proof/Bridge.lean     — the two are one function of the arguments.
  The three frames are the generated ones (the reference's is its run with the result dropped); the idealization
  rewrote nothing, so `preserves` is trivial.
-/
import proofs.«138407_j53687091200507_1_alg».proof.Defs
import proofs.«138407_j53687091200507_1_alg».proof.Proof.Gen.Kernel
import proofs.«138407_j53687091200507_1_alg».proof.Proof.Gen.Kernel.Skeleton
import proofs.«138407_j53687091200507_1_alg».proof.Proof.Gen.Kernel.Launch
import proofs.«138407_j53687091200507_1_alg».proof.Proof.Gen.Kernel.Points
import proofs.«138407_j53687091200507_1_alg».proof.Proof.Gen.Kernel.Frame
import proofs.«138407_j53687091200507_1_alg».proof.Proof.Gen.KernelIdeal
import proofs.«138407_j53687091200507_1_alg».proof.Proof.Gen.KernelIdeal.Skeleton
import proofs.«138407_j53687091200507_1_alg».proof.Proof.Gen.KernelIdeal.Launch
import proofs.«138407_j53687091200507_1_alg».proof.Proof.Gen.KernelIdeal.Points
import proofs.«138407_j53687091200507_1_alg».proof.Proof.Gen.KernelIdeal.Frame
import proofs.«138407_j53687091200507_1_alg».proof.Proof.Gen.ReferenceIdeal
import proofs.«138407_j53687091200507_1_alg».proof.Proof.Gen.ReferenceIdeal.Run
import proofs.«138407_j53687091200507_1_alg».proof.Proof.Gen.ReferenceIdeal.Read
import proofs.«138407_j53687091200507_1_alg».proof.Proof.Gen.Pre_finite_inputs
import proofs.«138407_j53687091200507_1_alg».proof.Proof.KernelRun
import proofs.«138407_j53687091200507_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the same array: the kernel's fold-back of `linRelu`, which is the reference's last stage. -/
theorem algebraic : Cert.algebraic_KernelIdeal_ReferenceIdeal := by
  intro m ρ m' ρ' _ hagree
  refine ⟨fun c => shapeCast Cert.KernelIdeal.S8x28224x32 (Cert.KernelIdeal.Blocks.result m c) Cert.KernelIdeal.Facts₀.shapeCasts_S225792x32_S8x28224x32,
    Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v31_eq, a0, a1, a2, a3, a4, a5, a6]
  show _ = shapeCast Cert.KernelIdeal.S8x28224x32 (Cert.KernelIdeal.Blocks.result m c) Cert.KernelIdeal.Facts₀.shapeCasts_S225792x32_S8x28224x32
  rw [Cert.KernelIdeal.Run.result_eq]
  exact (Cert.Bridge.kernel_eq_reference _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
